-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x3200000 : Shape := ⟨2, ![2, 3200000]⟩
abbrev S2x16 : Shape := ⟨2, ![2, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x16 : S_.BroadcastsInDim S2x16 (![] : Fin 0 → Fin S2x16.rank)
  reducesTo_S2x16_S_d0_1 : S2x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x2 .f32) (main_arg1 : IVec S2x3200000 32) (main_arg2 : FVec F S2x16 .f32) (main_arg3 : FVec F S16 .f32) (main_arg4 : FVec F S16x2 .f32) (main_arg5 : FVec F S2 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x16 .f32 := Host.absf main_arg2
  let main_cst_0 : FVec F S_ .f32 := constant S_ .f32 0x7F800000#32
  let main_v5 : FVec F S2x16 .f32 := broadcastInDim S2x16 ![] bcast_S_S2x16 main_cst_0
  let main_v6 : IVec S2x16 1 := cmpf .olt main_v4 main_v5
  let main_c_1 : IVec S_ 1 := constantI S_ 1 1#1
  let main_v7 : IVec S_ 1 := (fun x v => Host.reduce IntOp.andi x v reducesTo_S2x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x2 : Shape := ⟨2, ![100000, 2]⟩
abbrev S2x3200000 : Shape := ⟨2, ![2, 3200000]⟩
abbrev S2x16 : Shape := ⟨2, ![2, 16]⟩
abbrev S16 : Shape := ⟨1, ![16]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S10000x16 : Shape := ⟨2, ![10000, 16]⟩
abbrev S3300000x2 : Shape := ⟨2, ![3300000, 2]⟩
abbrev S1x2 : Shape := ⟨2, ![1, 2]⟩
abbrev S10000x2 : Shape := ⟨2, ![10000, 2]⟩
abbrev S10000 : Shape := ⟨1, ![10000]⟩
abbrev S10000x1 : Shape := ⟨2, ![10000, 1]⟩

abbrev nBuf : Space → Nat
  | .hbm => 84
  | .vmem => 10
  | .smem => 0
  | _ => 0

abbrev bufTy : (tb : Table) → Fin (tcTables nBuf tb) → BufTy
  | .hbm, ⟨0, _⟩ => ⟨S100000x2, .f32⟩
  | .hbm, ⟨1, _⟩ => ⟨S2x3200000, .i32⟩
  | .hbm, ⟨2, _⟩ => ⟨S2x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x2, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x2, .f32⟩
  | .hbm, ⟨75, _⟩ => ⟨S3300000x1, .f32⟩
  | .hbm, ⟨76, _⟩ => ⟨S3300000x2, .f32⟩
  | .hbm, ⟨77, _⟩ => ⟨S3300000x2, .f32⟩
  | .hbm, ⟨78, _⟩ => ⟨S_, .f32⟩
  | .hbm, ⟨79, _⟩ => ⟨S100000x2, .f32⟩
  | .hbm, ⟨80, _⟩ => ⟨S3300000x1, .i32⟩
  | .hbm, ⟨81, _⟩ => ⟨S100000x2, .f32⟩
  | .hbm, ⟨82, _⟩ => ⟨S1x2, .f32⟩
  | .hbm, ⟨83, _⟩ => ⟨S100000x2, .f32⟩
  | .local _ .vmem, ⟨0, _⟩ => ⟨S10000x16, .f32⟩
  | .local _ .vmem, ⟨1, _⟩ => ⟨S10000x16, .f32⟩
  | .local _ .vmem, ⟨2, _⟩ => ⟨S1x16, .f32⟩
  | .local _ .vmem, ⟨3, _⟩ => ⟨S10000x16, .f32⟩
  | .local _ .vmem, ⟨4, _⟩ => ⟨S10000x16, .f32⟩
  | .local _ .vmem, ⟨5, _⟩ => ⟨S10000x2, .f32⟩
  | .local _ .vmem, ⟨6, _⟩ => ⟨S10000x2, .f32⟩
  | .local _ .vmem, ⟨7, _⟩ => ⟨S1x2, .f32⟩
  | .local _ .vmem, ⟨8, _⟩ => ⟨S10000x2, .f32⟩
  | .local _ .vmem, ⟨9, _⟩ => ⟨S10000x2, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  shapeCasts_S2_S1x2 : S2.ShapeCasts S1x2
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x2_S2x16_S100000x16_1_0_0_1_n_n_wf : DotDims.WF S100000x2 S2x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x2.size a ≤ S100000x2.size a
  hwx1_0 : ∀ i : grid1.Coords, EltTy.bits .f32 = 32 ∨ (Rect.block (s := S100000x2) S10000x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2.size a ≤ S1x2.size a
  hwx1_1 : ∀ i : grid1.Coords, EltTy.bits .f32 = 32 ∨ (Rect.block (s := S1x2) S1x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x2.size a ≤ S100000x2.size a
  hwx1_2 : ∀ i : grid1.Coords, EltTy.bits .f32 = 32 ∨ (Rect.block (s := S100000x2) S10000x2.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x2_S2x16_S100000x16_1_0_0_1_n_n : DotDims S100000x2 S2x16 S100000x16 where
  lhsContracting := [1]
  rhsContracting := [0]
  lhsNonContracting := [0]
  rhsNonContracting := [1]
  lhsBatch := []
  rhsBatch := []
  wf := dot_S100000x2_S2x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_v43) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v59) S10000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S1x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S10000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x2 : Shape := ⟨2, ![100000, 2]⟩
abbrev S2x3200000 : Shape := ⟨2, ![2, 3200000]⟩
abbrev S2x16 : Shape := ⟨2, ![2, 16]⟩
abbrev S16 : Shape := ⟨1, ![16]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S3300000x2 : Shape := ⟨2, ![3300000, 2]⟩
abbrev S1x2 : Shape := ⟨2, ![1, 2]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x2, .f32⟩
  | 1 => ⟨S2x3200000, .i32⟩
  | 2 => ⟨S2x16, .f32⟩
  | 3 => ⟨S16, .f32⟩
  | 4 => ⟨S16x2, .f32⟩
  | 5 => ⟨S2, .f32⟩
  | 6 => ⟨S1x3200000, .i32⟩
  | 7 => ⟨S3200000, .i32⟩
  | 8 => ⟨S1x3200000, .i32⟩
  | 9 => ⟨S3200000, .i32⟩
  | 10 => ⟨S100000, .i32⟩
  | 11 => ⟨S3300000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S100000x16, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S1x3200000, .i32⟩
  | 70 => ⟨S3200000, .i32⟩
  | 71 => ⟨S1x3200000, .i32⟩
  | 72 => ⟨S3200000, .i32⟩
  | 73 => ⟨S100000, .i32⟩
  | 74 => ⟨S3300000, .i32⟩
  | 75 => ⟨S3300000, .i32⟩
  | 76 => ⟨S_, .f32⟩
  | 77 => ⟨S3300000, .f32⟩
  | 78 => ⟨S_, .f32⟩
  | 79 => ⟨S100000, .f32⟩
  | 80 => ⟨S3300000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S3300000, .i32⟩
  | 92 => ⟨S3300000, .i1⟩
  | 93 => ⟨S_, .i32⟩
  | 94 => ⟨S3300000, .i32⟩
  | 95 => ⟨S3300000, .i32⟩
  | 96 => ⟨S3300000, .i32⟩
  | 97 => ⟨S3300000x1, .i32⟩
  | 98 => ⟨S3300000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S3300000, .f32⟩
  | 109 => ⟨S100000x2, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x2, .f32⟩
  | 119 => ⟨S3300000x1, .f32⟩
  | 120 => ⟨S3300000x2, .f32⟩
  | 121 => ⟨S3300000x2, .f32⟩
  | 122 => ⟨S_, .f32⟩
  | 123 => ⟨S100000x2, .f32⟩
  | 124 => ⟨S3300000x1, .i32⟩
  | 125 => ⟨S100000x2, .f32⟩
  | 126 => ⟨S1x2, .f32⟩
  | 127 => ⟨S100000x2, .f32⟩
  | _ => ⟨S100000x2, .f32⟩

abbrev hbmTy0_1 (i : Nat) : BufTy := match i % 128 with
  | 0 => ⟨S100000x2, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x2, .f32⟩
  | 8 => ⟨S100000x2, .f32⟩
  | 9 => ⟨S100000x2, .f32⟩
  | 10 => ⟨S_, .f32⟩
  | 11 => ⟨S100000, .f32⟩
  | 12 => ⟨S100000x1, .f32⟩
  | 13 => ⟨S100000x1, .f32⟩
  | 14 => ⟨S100000x2, .f32⟩
  | 15 => ⟨S100000x2, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x2_S2x16_S100000x16_1_0_0_1_n_n_wf : DotDims.WF S100000x2 S2x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x2_S2x16_S100000x16_1_0_0_1_n_n : DotDims S100000x2 S2x16 S100000x16 where
  lhsContracting := [1]
  rhsContracting := [0]
  lhsNonContracting := [0]
  rhsNonContracting := [1]
  lhsBatch := []
  rhsBatch := []
  wf := dot_S100000x2_S2x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.HostChain.lean ====
/-
  The host side of the kernel's program, stretch by stretch, for ANY contents `W` a stretch starts from: what each
  stretch leaves in the buffers the next stretch or a region reads, as the same stage functions the reference's
  operations compose to (the two endpoint lists of the graph with the self loops appended, the inverse square roots
  of the in-degrees selected where the degree is positive, the per-edge normalisation, the dense product gathered
  along the sources, scaled per edge and summed into the targets). Both programs apply the same host operations to
  the same arguments; the kernel's program computes the graph's part once and the reference once per layer, with the
  same operations. So each equation here is a stretch's fold read back, the buffers it starts from rewritten to what
  they hold, and an unfolding of names: no operation is opened and no float law is used, and everything is stated at
  any float instance.
-/
import proofs.«417894_j26645977105089_3_alg».proof.Proof.Gen.KernelIdeal.Frame
import proofs.«417894_j26645977105089_3_alg».proof.Proof.RefRead
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.ReadP (val_main_v5 val_main_v6 val_main_v14 val_main_v29 val_main_v43 val_main_v47
  val_main_v53 val_main_v54 val_main_v62 val_main_v77 val_main_v91)

variable {F : FTy → Type} [FloatOps F]

/-! ## The reference computes the graph's part twice: the second copy's stages are the first's -/

section Twice
variable (x1 : (⟨S2x3200000, .i32⟩ : BufTy).Contents (Elt F))

/-- The source list with the self loops, second copy. -/
theorem src_twice : val_main_v53 (F := F) x1 = val_main_v5 (F := F) x1 := rfl
/-- The target list with the self loops, second copy. -/
theorem dst_twice : val_main_v54 (F := F) x1 = val_main_v6 (F := F) x1 := rfl
/-- The inverse square roots of the degrees, second copy. -/
theorem dinv_twice : val_main_v62 (F := F) x1 = val_main_v14 (F := F) x1 := rfl
/-- The per-edge normalisation, second copy. -/
theorem norm_twice : val_main_v77 (F := F) x1 = val_main_v29 (F := F) x1 := rfl

end Twice

variable (W : Valuation τ sig (Elt F))

/-! ## The first stretch with the inlined `where`: the edge lists and the inverse square roots of the degrees -/

/-- The operations before the first region up to the `where`'s result, as one list. -/
abbrev opsA : List (HloOp τ sig (Elt F)) := hostOps0 ++ hostOps0_1

/-- The sources, then every node once. -/
theorem a_v5 : after (opsA (F := F)) W (Proc.devRef .tc main_v5) = val_main_v5 (F := F) (W (Proc.devRef .tc main_arg1)) := by
  dsimp only [opsA, hostOps0, hostOps0_1, List.cons_append, List.nil_append]
  after_results
  rfl

/-- The targets, then every node once. -/
theorem a_v6 : after (opsA (F := F)) W (Proc.devRef .tc main_v6) = val_main_v6 (F := F) (W (Proc.devRef .tc main_arg1)) := by
  dsimp only [opsA, hostOps0, hostOps0_1, List.cons_append, List.nil_append]
  after_results
  rfl

/-- The inverse square root of each node's in-degree where it is positive, zero elsewhere. -/
theorem a_v14 : after (opsA (F := F)) W (Proc.devRef .tc main_v14) = val_main_v14 (F := F) (W (Proc.devRef .tc main_arg1)) := by
  dsimp only [opsA, hostOps0, hostOps0_1, List.cons_append, List.nil_append]
  after_results
  rfl

theorem a_arg0 : after (opsA (F := F)) W (Proc.devRef .tc main_arg0) = W (Proc.devRef .tc main_arg0) := by
  dsimp only [opsA, hostOps0, hostOps0_1, List.cons_append, List.nil_append]
  after_results_simp
theorem a_arg2 : after (opsA (F := F)) W (Proc.devRef .tc main_arg2) = W (Proc.devRef .tc main_arg2) := by
  dsimp only [opsA, hostOps0, hostOps0_1, List.cons_append, List.nil_append]
  after_results_simp
theorem a_arg3 : after (opsA (F := F)) W (Proc.devRef .tc main_arg3) = W (Proc.devRef .tc main_arg3) := by
  dsimp only [opsA, hostOps0, hostOps0_1, List.cons_append, List.nil_append]
  after_results_simp
theorem a_arg4 : after (opsA (F := F)) W (Proc.devRef .tc main_arg4) = W (Proc.devRef .tc main_arg4) := by
  dsimp only [opsA, hostOps0, hostOps0_1, List.cons_append, List.nil_append]
  after_results_simp
theorem a_arg5 : after (opsA (F := F)) W (Proc.devRef .tc main_arg5) = W (Proc.devRef .tc main_arg5) := by
  dsimp only [opsA, hostOps0, hostOps0_1, List.cons_append, List.nil_append]
  after_results_simp

/-! ## The stretch up to the first region: the first layer's aggregate, the bias as a row, the normalisation -/

section StageB
variable (x0 : (⟨S100000x2, .f32⟩ : BufTy).Contents (Elt F)) (x1 : (⟨S2x3200000, .i32⟩ : BufTy).Contents (Elt F))
  (x2 : (⟨S2x16, .f32⟩ : BufTy).Contents (Elt F))

/-- The product of the node features with the first weights, gathered along the sources, scaled by the per-edge
    normalisation and summed into the targets. -/
theorem b_v43 (e5 : W (Proc.devRef .tc main_v5) = val_main_v5 (F := F) x1) (e6 : W (Proc.devRef .tc main_v6) = val_main_v6 (F := F) x1)
    (e14 : W (Proc.devRef .tc main_v14) = val_main_v14 (F := F) x1)
    (ea0 : W (Proc.devRef .tc main_arg0) = x0) (ea2 : W (Proc.devRef .tc main_arg2) = x2) :
    after (hostOps0_2 (F := F)) W (Proc.devRef .tc main_v43) = val_main_v43 (F := F) x0 x1 x2 := by
  dsimp only [hostOps0_2]
  after_results_simp
  rw [e5, e6, e14, ea0, ea2]
  rfl

/-- The per-edge normalisation: the product of the two endpoints' inverse square roots. -/
theorem b_v29 (e5 : W (Proc.devRef .tc main_v5) = val_main_v5 (F := F) x1) (e6 : W (Proc.devRef .tc main_v6) = val_main_v6 (F := F) x1)
    (e14 : W (Proc.devRef .tc main_v14) = val_main_v14 (F := F) x1) :
    after (hostOps0_2 (F := F)) W (Proc.devRef .tc main_v29) = val_main_v29 (F := F) x1 := by
  dsimp only [hostOps0_2]
  after_results_simp
  rw [e5, e6, e14]
  rfl

end StageB

/-- The first bias viewed as one row. -/
theorem b_v44 : after (hostOps0_2 (F := F)) W (Proc.devRef .tc main_v44)
    = shapeCast S1x16 (W (Proc.devRef .tc main_arg3)) shapeCasts_S16_S1x16 := by
  dsimp only [hostOps0_2]
  after_results_simp
  rfl

theorem b_v5 : after (hostOps0_2 (F := F)) W (Proc.devRef .tc main_v5) = W (Proc.devRef .tc main_v5) := by
  dsimp only [hostOps0_2]
  after_results_simp
theorem b_v6 : after (hostOps0_2 (F := F)) W (Proc.devRef .tc main_v6) = W (Proc.devRef .tc main_v6) := by
  dsimp only [hostOps0_2]
  after_results_simp
theorem b_arg4 : after (hostOps0_2 (F := F)) W (Proc.devRef .tc main_arg4) = W (Proc.devRef .tc main_arg4) := by
  dsimp only [hostOps0_2]
  after_results_simp
theorem b_arg5 : after (hostOps0_2 (F := F)) W (Proc.devRef .tc main_arg5) = W (Proc.devRef .tc main_arg5) := by
  dsimp only [hostOps0_2]
  after_results_simp

/-! ## The stretch between the regions: the second layer's aggregate, the second bias as a row -/

section StageC
variable (x0 : (⟨S100000x2, .f32⟩ : BufTy).Contents (Elt F)) (x1 : (⟨S2x3200000, .i32⟩ : BufTy).Contents (Elt F))
  (x2 : (⟨S2x16, .f32⟩ : BufTy).Contents (Elt F)) (x3 : (⟨S16, .f32⟩ : BufTy).Contents (Elt F))
  (x4 : (⟨S16x2, .f32⟩ : BufTy).Contents (Elt F))

/-- The product of the first layer's result with the second weights, gathered, scaled and summed as before — over
    the graph's part the first stretch computed, which is what the reference recomputes. -/
theorem c_v59 (e45 : W (Proc.devRef .tc main_v45) = val_main_v47 (F := F) x0 x1 x2 x3)
    (e5 : W (Proc.devRef .tc main_v5) = val_main_v5 (F := F) x1) (e6 : W (Proc.devRef .tc main_v6) = val_main_v6 (F := F) x1)
    (e29 : W (Proc.devRef .tc main_v29) = val_main_v29 (F := F) x1) (ea4 : W (Proc.devRef .tc main_arg4) = x4) :
    after (hostOps1 (F := F)) W (Proc.devRef .tc main_v59) = val_main_v91 (F := F) x0 x1 x2 x3 x4 := by
  dsimp only [hostOps1]
  after_results_simp
  rw [e45, e5, e6, e29, ea4, ← src_twice, ← dst_twice, ← norm_twice]
  rfl

end StageC

/-- The second bias viewed as one row. -/
theorem c_v60 : after (hostOps1 (F := F)) W (Proc.devRef .tc main_v60)
    = shapeCast S1x2 (W (Proc.devRef .tc main_arg5)) shapeCasts_S2_S1x2 := by
  dsimp only [hostOps1]
  after_results_simp
  rfl

end Cert.KernelIdeal.Hand

end
-- ==== Proof.Region0Value.lean ====
/-
  The first region's value: after its ten grid points the result array holds, row by row, the aggregated rows plus
  the bias row, clipped below at zero. Point t of the grid reads rows 10000·t … 10000·t + 9999 of the aggregate and the
  one bias row, and writes the same rows of the result; the ten blocks of rows tile the array. Stated for any contents
  `V` the region is entered from and at any float instance: an addition and a maximum, entry by entry.
-/
import proofs.«417894_j26645977105089_3_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem zero_off2 : (![0, 0] : Fin 2 → Nat) = fun _ => 0 := funext fun a => by fin_cases a <;> rfl

/-- The aggregate plus the bias row laid along every row, clipped below at zero. -/
def biasRelu (z : FVec F S100000x16 .f32) (b : FVec F S1x16 .f32) : FVec F S100000x16 .f32 :=
  maximumf (addf z (broadcastInDim S100000x16 (![0, 1] : Fin 2 → Fin 2) (by decide) b))
    (broadcastInDim S100000x16 (![] : Fin 0 → Fin 2) (by decide) (constant S_ .f32 0x00000000#32))

/-- Entry (R, j) of it: max (z[R, j] + b[0, j], 0). -/
theorem biasRelu_apply (z : FVec F S100000x16 .f32) (b : FVec F S1x16 .f32) (R : Fin 100000) (j : Fin 16) :
    biasRelu z b (ix2 R j)
      = FloatOps.maximumf (FloatOps.addf (z (ix2 R j)) (b (ix2 (0 : Fin 1) j))) (FloatOps.ofBits .f32 0x00000000#32) := by
  unfold biasRelu
  show FloatOps.maximumf (FloatOps.addf (z (ix2 R j))
      (broadcastInDim S100000x16 (![0, 1] : Fin 2 → Fin 2) _ b (ix2 R j))) _ = _
  rw [broadcastInDim_apply (![0, 1] : Fin 2 → Fin 2) _ b (ix2 R j) (ix2 (0 : Fin 1) j) (fun a => match a with
    | ⟨0, _⟩ => by show (0 : Nat) = if (1 : Nat) = 1 then 0 else R.val; rw [if_pos rfl]
    | ⟨1, _⟩ => by show j.val = if (16 : Nat) = 1 then 0 else j.val; rw [if_neg (by decide)])]
  rfl

/-- The body's stored value at entry (r, j) of a block: max (x0[r, j] + x1[0, j], 0). -/
theorem pay0_apply (x0 : Vec F S10000x16 .f32) (x1 : Vec F S1x16 .f32) (r : Fin 10000) (j : Fin 16) :
    k0_pay1 x0 x1 (ix2 r j)
      = FloatOps.maximumf (FloatOps.addf (x0 (ix2 r j)) (x1 (ix2 (0 : Fin 1) j))) (FloatOps.ofBits .f32 0x00000000#32) := by
  unfold k0_pay1
  show FloatOps.maximumf (FloatOps.addf (shapeCast S10000x16 x0 shapeCasts_S10000x16_S10000x16 (ix2 r j))
      (broadcastTo S10000x16 (shapeCast S1x16 x1 shapeCasts_S1x16_S1x16) broadcasts_S1x16_S10000x16 (ix2 r j))) _ = _
  rw [shapeCast_self, shapeCast_self, broadcastTo_1b_ab_apply]
  rfl

/-- The printed index maps over the grid: point t's block of the aggregate and of the result is block (t, 0), the
    bias row's block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The aggregate's block at point t is rows 10000·t … of the aggregate as the region finds it. -/
theorem blk0_0_apply (c : Dev nD) (t : Fin cfg0.N) (r : Fin 10000) (j : Fin 16) (R : Fin 100000) (hR : R.val = 10000 * t.val + r.val) :
    (iblk0 V c 0 t : Vec F S10000x16 .f32) (ix2 r j) = (V c main_v43 : Vec F S100000x16 .f32) (ix2 R j) := by
  obtain ⟨e0, e1, -, -, -, -⟩ := idx0 t
  unfold iblk0
  rw [View.read_apply]
  show V c main_v43 _ = V c main_v43 _
  congr 1
  funext a
  apply Fin.ext
  match a with
  | ⟨0, _⟩ => show win0_0.index t (0 : Fin 2) * 10000 + 1 * r.val = R.val; rw [e0, hR]; omega
  | ⟨1, _⟩ => show win0_0.index t (1 : Fin 2) * 16 + 1 * j.val = j.val; rw [e1]; omega

/-- The bias row's block at every point is the bias row. -/
theorem blk0_1_apply (c : Dev nD) (t : Fin cfg0.N) (j : Fin 16) :
    (iblk0 V c 1 t : Vec F S1x16 .f32) (ix2 (0 : Fin 1) j) = (V c main_v44 : Vec F S1x16 .f32) (ix2 (0 : Fin 1) j) := by
  obtain ⟨-, -, e0, e1, -, -⟩ := idx0 t
  unfold iblk0
  rw [View.read_apply]
  show V c main_v44 _ = V c main_v44 _
  congr 1
  funext a
  apply Fin.ext
  match a with
  | ⟨0, _⟩ => show win0_1.index t (0 : Fin 2) * 1 + 1 * 0 = 0; rw [e0]
  | ⟨1, _⟩ => show win0_1.index t (1 : Fin 2) * 16 + 1 * j.val = j.val; rw [e1]; omega

/-- What point t writes back is block t of `biasRelu` of the aggregate and the bias row as the region finds them. -/
theorem flushed0 (c : Dev nD) (t : Fin cfg0.N) :
    (dat0 V c).flushed 2 t = ((cfg0.win 2).blk t).view.read (Elt F) (biasRelu (V c main_v43) (V c main_v44)) := by
  show (cfg0.win 2).cut (grid0.coords t) ((dat0 V c).after 2 t) = _
  rw [after0_2]
  unfold out0_2
  rw [View.canon_unit_zero zero_off2]
  simp only [View.ld_unit_zero (S := S10000x16) zero_off2, View.ld_unit_zero (S := S1x16) zero_off2]
  obtain ⟨-, -, -, -, e0, e1⟩ := idx0 t
  funext y
  obtain ⟨r, j, rfl⟩ : ∃ (r : Fin 10000) (j : Fin 16), y = ix2 r j := ⟨y 0, y 1, eq_ix2 y⟩
  have ht : t.val < 10 := Nat.lt_of_lt_of_eq t.isLt N_0
  have hemb : ((cfg0.win 2).blk t).view.emb (ix2 r j) = ix2 (⟨10000 * t.val + r.val, by have := r.isLt; omega⟩ : Fin 100000) j := by
    funext a
    apply Fin.ext
    match a with
    | ⟨0, _⟩ => show win0_2.index t (0 : Fin 2) * 10000 + 1 * r.val = 10000 * t.val + r.val; rw [e0]; omega
    | ⟨1, _⟩ => show win0_2.index t (1 : Fin 2) * 16 + 1 * j.val = j.val; rw [e1]; omega
  show k0_pay1 (iblk0 V c 0 t) (iblk0 V c 1 t) (ix2 r j)
    = biasRelu (V c main_v43) (V c main_v44) (((cfg0.win 2).blk t).view.emb (ix2 r j))
  rw [hemb, pay0_apply (iblk0 V c 0 t) (iblk0 V c 1 t) r j, biasRelu_apply,
    blk0_0_apply V c t r j ⟨10000 * t.val + r.val, by have := r.isLt; omega⟩ rfl, blk0_1_apply V c t j]

/-- Every row of the result is in some point's block: row R in point R / 10000's. -/
theorem cover0 (i : S100000x16.Idx) :
    ∃ t : Fin cfg0.N, (cfg0.win 2).flush t = true ∧ i ∈ ((cfg0.win 2).blk t).view.set := by
  have h0 : (i 0).val < 100000 := (i 0).isLt
  have h1 : (i 1).val < 16 := (i 1).isLt
  let t : Fin cfg0.N := ⟨(i 0).val / 10000, by rw [show cfg0.N = 10 from N_0]; omega⟩
  obtain ⟨-, -, -, -, e0, e1⟩ := idx0 t
  refine ⟨t, flush0_2 t, ?_⟩
  show i ∈ ((View.whole main_v45).slice (win0_2.rect t)).set
  rw [View.set_slice_whole, Rect.mem_set_unit]
  intro a
  match a with
  | ⟨0, _⟩ =>
    show win0_2.index t (0 : Fin 2) * 10000 ≤ (i 0).val ∧ (i 0).val < win0_2.index t (0 : Fin 2) * 10000 + 10000
    rw [e0]; show (i 0).val / 10000 * 10000 ≤ (i 0).val ∧ (i 0).val < (i 0).val / 10000 * 10000 + 10000; omega
  | ⟨1, _⟩ =>
    show win0_2.index t (1 : Fin 2) * 16 ≤ (i 1).val ∧ (i 1).val < win0_2.index t (1 : Fin 2) * 16 + 16
    rw [e1]; omega

/-- The result array after the region: `biasRelu` of the aggregate and the bias row as the region finds them. -/
theorem region0_value (c : Dev nD) :
    (dat0 V c).arrAt 2 cfg0.N = biasRelu (V c main_v43) (V c main_v44) :=
  (dat0 V c).arrAt_eq_of_cover 2 (biasRelu (V c main_v43) (V c main_v44)) (fun t _ => flushed0 V c t) cover0

end Cert.KernelIdeal.Hand

end
-- ==== Proof.Region1Value.lean ====
/-
  The second region's value, one row at a time. Each row of the aggregate plus the bias has two entries s₀, s₁; with
  M = max(−∞, max(s₀, s₁)) the row's result is sⱼ − M − log (exp (s₀ − M) + exp (s₁ − M)): the log-softmax. The kernel
  takes the maximum and the sum with the vector unit's lane reductions on a block of rows, the host with its reduce
  operations on the whole array; at the extended reals both are the same fold of `max` from −∞ and the same sum over
  the row's two entries (the host's sum starts from the constant zero, which adds nothing), and the exponential and
  the logarithm are one function on either side. `rowLsm` is that formula; `lsmBlock` is the kernel body's spelling of
  it on a block and `lsmRows` the host's on the array, and both are read to `rowLsm` entry by entry.
-/
import proofs.«417894_j26645977105089_3_alg».proof.Proof.Region0Value
import Idealize.ShloMosaic.PureOps.Ideal.Laws
import Idealize.ShloMosaic.PureOps.Reduce

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

/-! ## One row -/

/-- The row's maximum as both programs take it: the fold of `max` from −∞ over the two entries, then once more
    against −∞. -/
def rowMax (s : Fin 2 → EReal) : EReal :=
  max (Ideal.ofBits .f32 0xFF800000#32) (Finset.univ.fold max (Ideal.ofBits .f32 0xFF800000#32) s)

/-- Entry j of the row's log-softmax. -/
def rowLsm (s : Fin 2 → EReal) (j : Fin 2) : EReal :=
  (s j - rowMax s) - Ideal.log (∑ k : Fin 2, Ideal.exp (s k - rowMax s))

/-! ## The shape facts of the host's spelling, decided once -/

theorem rows_reducesTo : S100000x2.ReducesTo [1] S100000 := by decide
theorem rows_reduces : S100000x2.Reduces [1] S100000 := by decide
theorem scalar_pos : 0 < S_.numel := by decide
theorem bc_scalar_vec : S_.BroadcastsInDim S100000 (![] : Fin 0 → Fin 1) := by decide
theorem bc_vec_col : S100000.BroadcastsInDim (⟨2, ![100000, 1]⟩ : Shape) (![0] : Fin 1 → Fin 2) := by decide
theorem bc_col_rows : (⟨2, ![100000, 1]⟩ : Shape).BroadcastsInDim S100000x2 (![0, 1] : Fin 2 → Fin 2) := by decide
theorem bc_row_rows : S1x2.BroadcastsInDim S100000x2 (![0, 1] : Fin 2 → Fin 2) := by decide

/-! ## The two spellings -/

section Spec
variable {F : FTy → Type} [FloatOps F]

/-- Host: every entry's row maximum (from −∞, then once more against −∞), laid along the row. -/
def hMaxCol (s : FVec F S100000x2 .f32) : FVec F S100000x2 .f32 :=
  broadcastInDim S100000x2 (![0, 1] : Fin 2 → Fin 2) bc_col_rows
    (broadcastInDim (⟨2, ![100000, 1]⟩ : Shape) (![0] : Fin 1 → Fin 2) bc_vec_col
      (maximumf (broadcastInDim S100000 (![] : Fin 0 → Fin 1) bc_scalar_vec (constant S_ .f32 0xFF800000#32))
        (Host.reduce FloatOps.maximumf s (constant S_ .f32 0xFF800000#32) rows_reducesTo scalar_pos)))

/-- Host: the logarithm of every row's sum, laid along the row. -/
def hLogSumCol (e : FVec F S100000x2 .f32) : FVec F S100000x2 .f32 :=
  broadcastInDim S100000x2 (![0, 1] : Fin 2 → Fin 2) bc_col_rows
    (Host.log (broadcastInDim (⟨2, ![100000, 1]⟩ : Shape) (![0] : Fin 1 → Fin 2) bc_vec_col
      (Host.reduceAdd e (constant S_ .f32 0x00000000#32) rows_reducesTo scalar_pos)))

/-- Log-softmax along the rows of a [100000, 2] array, operation by operation as the host applies it. -/
def lsmRows (s : FVec F S100000x2 .f32) : FVec F S100000x2 .f32 :=
  subf (subf s (hMaxCol s)) (hLogSumCol (Host.exp (subf s (hMaxCol s))))

/-- The aggregate plus the bias row laid along every row, then the log-softmax of each row. -/
def biasLsm (z : FVec F S100000x2 .f32) (b : FVec F S1x2 .f32) : FVec F S100000x2 .f32 :=
  lsmRows (addf z (broadcastInDim S100000x2 (![0, 1] : Fin 2 → Fin 2) bc_row_rows b))

/-- Kernel: every entry's row maximum on a block of rows. -/
def kMaxCol (v : FVec F S10000x2 .f32) : FVec F S10000x2 .f32 :=
  broadcastTo S10000x2 (shapeCast S10000x1
    (maximumf (broadcast S10000 (Scalar.ofBits .f32 0xFF800000#32))
      (multiReduction .maximumf [1] S10000 v 0xFF800000#32 reduces_S10000x2_S10000 (.inl rfl) rfl))
    shapeCasts_S10000_S10000x1) broadcasts_S10000x1_S10000x2

/-- Kernel: the logarithm of every row's sum on a block of rows. -/
def kLogSumCol (e : FVec F S10000x2 .f32) : FVec F S10000x2 .f32 :=
  broadcastTo S10000x2 (log (shapeCast S10000x1
    (multiReduction .add [1] S10000 e 0x00000000#32 reduces_S10000x2_S10000 (.inl rfl) rfl)
    shapeCasts_S10000_S10000x1)) broadcasts_S10000x1_S10000x2

/-- The kernel body after its bias add, on one block of rows. -/
def lsmBlock (v : FVec F S10000x2 .f32) : FVec F S10000x2 .f32 :=
  subf (subf v (kMaxCol v)) (kLogSumCol (exp (subf v (kMaxCol v))))

/-- The body's stored value is `lsmBlock` of the block plus the bias row. -/
theorem pay1_eq (x0 : Vec F S10000x2 .f32) (x1 : Vec F S1x2 .f32) :
    k1_pay1 x0 x1 = lsmBlock (addf (shapeCast S10000x2 x0 shapeCasts_S10000x2_S10000x2)
      (broadcastTo S10000x2 (shapeCast S1x2 x1 shapeCasts_S1x2_S1x2) broadcasts_S1x2_S10000x2)) := rfl

end Spec

/-! ## Layout steps at an index -/

/-- A [n, 1] column broadcast along two columns reads its row. -/
theorem bcastTo_col_apply {n : Nat} (x : (⟨2, ![n, 1]⟩ : Shape).Idx → EReal) (h : (⟨2, ![n, 1]⟩ : Shape).Broadcasts ⟨2, ![n, 2]⟩)
    (hn : n ≠ 1) (r : Fin n) (j : Fin 2) : broadcastTo ⟨2, ![n, 2]⟩ x h (ix2 r j) = x (ix2 r (0 : Fin 1)) := by
  refine broadcastTo_apply x h (ix2 r j) (ix2 r (0 : Fin 1)) fun a => ?_
  match a with
  | ⟨0, _⟩ => show r.val = if n = 1 then 0 else r.val; rw [if_neg hn]
  | ⟨1, _⟩ => show (0 : Nat) = if (1 : Nat) = 1 then 0 else j.val; rw [if_pos rfl]

/-- A vector viewed as a column reads its entry. -/
theorem cast_col_apply {n : Nat} (x : (⟨1, ![n]⟩ : Shape).Idx → EReal) (h : (⟨1, ![n]⟩ : Shape).ShapeCasts ⟨2, ![n, 1]⟩)
    (r : Fin n) : shapeCast ⟨2, ![n, 1]⟩ x h (ix2 r (0 : Fin 1)) = x (ix1 r) := by
  refine shapeCast_apply x h (ix2 r (0 : Fin 1)) (ix1 r) ?_
  rw [Shape.rowMajor_val_two, Shape.rowMajor_val_one]
  show r.val = r.val * 1 + 0
  omega

/-- The host's column of a vector reads its entry. -/
theorem bcast_vec_col_apply (x : FVec Ideal S100000 .f32) (R : Fin 100000) :
    broadcastInDim (⟨2, ![100000, 1]⟩ : Shape) (![0] : Fin 1 → Fin 2) bc_vec_col x (ix2 R (0 : Fin 1)) = x (ix1 R) :=
  broadcastInDim_apply _ bc_vec_col x (ix2 R (0 : Fin 1)) (ix1 R) (fun a => match a with
    | ⟨0, _⟩ => by show R.val = if (100000 : Nat) = 1 then 0 else R.val; rw [if_neg (by decide)])

/-- The host's column laid along the row reads its row. -/
theorem bcast_col_rows_apply (x : FVec Ideal (⟨2, ![100000, 1]⟩ : Shape) .f32) (R : Fin 100000) (k : Fin 2) :
    broadcastInDim S100000x2 (![0, 1] : Fin 2 → Fin 2) bc_col_rows x (ix2 R k) = x (ix2 R (0 : Fin 1)) :=
  broadcastInDim_apply _ bc_col_rows x (ix2 R k) (ix2 R (0 : Fin 1)) (fun a => match a with
    | ⟨0, _⟩ => by show R.val = if (100000 : Nat) = 1 then 0 else R.val; rw [if_neg (by decide)]
    | ⟨1, _⟩ => by show (0 : Nat) = if (1 : Nat) = 1 then 0 else k.val; rw [if_pos rfl])

/-- The host's logarithm, entry by entry. -/
theorem hostLog_apply {s : Shape} (x : FVec Ideal s .f32) (i : s.Idx) : Host.log x i = Ideal.log (x i) := rfl

/-! ## The reductions at a row -/

/-- The lane maximum of a block's row: the fold over its two entries. -/
theorem kRowMax (v : FVec Ideal S10000x2 .f32) (h : S10000x2.Reduces [1] S10000) (hφ : FKind.Formats .f32)
    (hacc : (0xFF800000#32 : BitVec 32) = 0xFF800000#32) (r : Fin 10000) :
    multiReduction .maximumf [1] S10000 v 0xFF800000#32 h hφ hacc (ix1 r)
      = Finset.univ.fold max (Ideal.ofBits .f32 0xFF800000#32) (fun k : Fin 2 => v (ix2 r k)) := by
  refine (Ideal.multiReduction_maximumf_single v 0xFF800000#32 h hφ hacc (ix1 r)).trans ?_
  refine Finset.fold_congr fun k _ => ?_
  exact congrArg v (funext fun a => Fin.ext (by match a with | ⟨0, _⟩ => rfl | ⟨1, _⟩ => rfl))

/-- The lane sum of a block's row: the sum of its two entries. -/
theorem kRowSum (v : FVec Ideal S10000x2 .f32) (h : S10000x2.Reduces [1] S10000) (hφ : FKind.Formats .f32)
    (hacc : (0x00000000#32 : BitVec 32) = 0x00000000#32) (r : Fin 10000) :
    multiReduction .add [1] S10000 v 0x00000000#32 h hφ hacc (ix1 r) = ∑ k : Fin 2, v (ix2 r k) := by
  refine (Ideal.multiReduction_add_single v 0x00000000#32 h hφ hacc (ix1 r)).trans ?_
  exact Finset.sum_congr rfl fun k _ =>
    congrArg v (funext fun a => Fin.ext (by match a with | ⟨0, _⟩ => rfl | ⟨1, _⟩ => rfl))

/-- The host's maximum of a row from an initial value: the fold over its two entries. -/
theorem hRowMax (s : FVec Ideal S100000x2 .f32) (init : FVec Ideal S_ .f32) (R : Fin 100000) :
    Host.reduce FloatOps.maximumf s init rows_reducesTo scalar_pos (ix1 R)
      = Finset.univ.fold max (init (Shape.Idx.first scalar_pos)) (fun k : Fin 2 => s (ix2 R k)) := by
  refine (Host.reduce_eq_fold_single FloatOps.maximumf s init rows_reducesTo rows_reduces scalar_pos (ix1 R)).trans ?_
  refine Finset.fold_congr fun k _ => ?_
  exact congrArg s (funext fun a => Fin.ext (by match a with | ⟨0, _⟩ => rfl | ⟨1, _⟩ => rfl))

/-- The host's sum of a row from an initial value: the initial value plus the sum of its two entries. -/
theorem hRowSum (s : FVec Ideal S100000x2 .f32) (init : FVec Ideal S_ .f32) (R : Fin 100000) :
    Host.reduceAdd s init rows_reducesTo scalar_pos (ix1 R)
      = init (Shape.Idx.first scalar_pos) + ∑ k : Fin 2, s (ix2 R k) := by
  show Ideal.hostReduceAdd rows_reducesTo s (init (Shape.Idx.first scalar_pos)) (ix1 R) = _
  rw [Ideal.hostReduceAdd_single rows_reducesTo rows_reduces]
  refine congrArg (_ + ·) (Finset.sum_congr rfl fun k _ => ?_)
  exact congrArg s (funext fun a => Fin.ext (by match a with | ⟨0, _⟩ => rfl | ⟨1, _⟩ => rfl))

/-! ## Both spellings, entry by entry -/

theorem kMaxCol_apply (v : FVec Ideal S10000x2 .f32) (r : Fin 10000) (k : Fin 2) :
    kMaxCol v (ix2 r k) = rowMax (fun k => v (ix2 r k)) := by
  unfold kMaxCol
  refine (bcastTo_col_apply _ _ (by decide) r k).trans ?_
  refine (cast_col_apply _ _ r).trans ?_
  exact congrArg (max (Ideal.ofBits .f32 0xFF800000#32)) (kRowMax v _ _ _ r)

theorem kLogSumCol_apply (e : FVec Ideal S10000x2 .f32) (r : Fin 10000) (k : Fin 2) :
    kLogSumCol e (ix2 r k) = Ideal.log (∑ k' : Fin 2, e (ix2 r k')) := by
  unfold kLogSumCol
  refine (bcastTo_col_apply _ _ (by decide) r k).trans ?_
  show Ideal.log (shapeCast S10000x1 _ shapeCasts_S10000_S10000x1 (ix2 r (0 : Fin 1))) = _
  exact congrArg Ideal.log ((cast_col_apply _ _ r).trans (kRowSum e _ _ _ r))

/-- The kernel's block, entry (r, j): the row function of the block's row r. -/
theorem lsmBlock_apply (v : FVec Ideal S10000x2 .f32) (r : Fin 10000) (j : Fin 2) :
    lsmBlock v (ix2 r j) = rowLsm (fun k => v (ix2 r k)) j := by
  unfold lsmBlock rowLsm
  show (v (ix2 r j) - kMaxCol v (ix2 r j)) - kLogSumCol (exp (subf v (kMaxCol v))) (ix2 r j) = _
  rw [kMaxCol_apply, kLogSumCol_apply]
  refine congrArg (fun t => _ - Ideal.log t) (Finset.sum_congr rfl fun k _ => ?_)
  show Ideal.exp (v (ix2 r k) - kMaxCol v (ix2 r k)) = _
  rw [kMaxCol_apply]

theorem hMaxCol_apply (s : FVec Ideal S100000x2 .f32) (R : Fin 100000) (k : Fin 2) :
    hMaxCol s (ix2 R k) = rowMax (fun k => s (ix2 R k)) := by
  unfold hMaxCol
  refine (bcast_col_rows_apply _ R k).trans ?_
  refine (bcast_vec_col_apply _ R).trans ?_
  exact congrArg (max (Ideal.ofBits .f32 0xFF800000#32)) (hRowMax s _ R)

theorem hLogSumCol_apply (e : FVec Ideal S100000x2 .f32) (R : Fin 100000) (k : Fin 2) :
    hLogSumCol e (ix2 R k) = Ideal.log (∑ k' : Fin 2, e (ix2 R k')) := by
  unfold hLogSumCol
  refine (bcast_col_rows_apply _ R k).trans ?_
  refine (hostLog_apply _ _).trans (congrArg Ideal.log ?_)
  refine (bcast_vec_col_apply _ R).trans ((hRowSum e _ R).trans ?_)
  exact (congrArg (· + ∑ k' : Fin 2, e (ix2 R k')) Ideal.ofBits_zero_f32).trans (zero_add _)

/-- The host's spelling, entry (R, j): the row function of row R. -/
theorem lsmRows_apply (s : FVec Ideal S100000x2 .f32) (R : Fin 100000) (j : Fin 2) :
    lsmRows s (ix2 R j) = rowLsm (fun k => s (ix2 R k)) j := by
  unfold lsmRows rowLsm
  show (s (ix2 R j) - hMaxCol s (ix2 R j)) - hLogSumCol (Host.exp (subf s (hMaxCol s))) (ix2 R j) = _
  rw [hMaxCol_apply, hLogSumCol_apply]
  refine congrArg (fun t => _ - Ideal.log t) (Finset.sum_congr rfl fun k _ => ?_)
  show Ideal.exp (s (ix2 R k) - hMaxCol s (ix2 R k)) = _
  rw [hMaxCol_apply]

end Cert.KernelIdeal.Hand

end
-- ==== Proof.Region1Blocks.lean ====
/-
  The second region's blocks: point t of its grid reads rows 10000·t … 10000·t + 9999 of the second layer's aggregate
  and the one bias row, and writes the same rows of the result; what it writes is block t of `biasLsm` of the two
  arrays as the region finds them, entry by entry through the row function, and the ten blocks tile the array.
-/
import proofs.«417894_j26645977105089_3_alg».proof.Proof.Region1Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Entry (R, j) of `biasLsm`: the row function of the aggregate's row R plus the bias row. -/
theorem biasLsm_apply (z : FVec Ideal S100000x2 .f32) (b : FVec Ideal S1x2 .f32) (R : Fin 100000) (j : Fin 2) :
    biasLsm z b (ix2 R j) = rowLsm (fun k => z (ix2 R k) + b (ix2 (0 : Fin 1) k)) j := by
  unfold biasLsm
  rw [lsmRows_apply]
  refine congrArg (fun s => rowLsm s j) (funext fun k => ?_)
  show z (ix2 R k) + broadcastInDim S100000x2 (![0, 1] : Fin 2 → Fin 2) _ b (ix2 R k) = _
  rw [broadcastInDim_apply (![0, 1] : Fin 2 → Fin 2) _ b (ix2 R k) (ix2 (0 : Fin 1) k) (fun a => match a with
    | ⟨0, _⟩ => by show (0 : Nat) = if (1 : Nat) = 1 then 0 else R.val; rw [if_pos rfl]
    | ⟨1, _⟩ => by show k.val = if (2 : Nat) = 1 then 0 else k.val; rw [if_neg (by decide)])]

/-- Entry (r, j) of the body's stored value: the row function of the block's row r plus the bias row. -/
theorem pay1_apply (x0 : Vec Ideal S10000x2 .f32) (x1 : Vec Ideal S1x2 .f32) (r : Fin 10000) (j : Fin 2) :
    k1_pay1 x0 x1 (ix2 r j) = rowLsm (fun k => x0 (ix2 r k) + x1 (ix2 (0 : Fin 1) k)) j := by
  rw [pay1_eq, lsmBlock_apply]
  refine congrArg (fun s => rowLsm s j) (funext fun k => ?_)
  show shapeCast S10000x2 x0 shapeCasts_S10000x2_S10000x2 (ix2 r k)
    + broadcastTo S10000x2 (shapeCast S1x2 x1 shapeCasts_S1x2_S1x2) broadcasts_S1x2_S10000x2 (ix2 r k) = _
  rw [shapeCast_self, shapeCast_self, broadcastTo_1b_ab_apply]

/-- The printed index maps over the grid: point t's block of the aggregate and of the result is block (t, 0), the
    bias row's block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The aggregate's block at point t is rows 10000·t … of the aggregate as the region finds it. -/
theorem blk1_0_apply (c : Dev nD) (t : Fin cfg1.N) (r : Fin 10000) (j : Fin 2) (R : Fin 100000) (hR : R.val = 10000 * t.val + r.val) :
    (iblk1 V c 0 t : Vec Ideal S10000x2 .f32) (ix2 r j) = (V c main_v59 : Vec Ideal S100000x2 .f32) (ix2 R j) := by
  obtain ⟨e0, e1, -, -, -, -⟩ := idx1 t
  unfold iblk1
  rw [View.read_apply]
  show V c main_v59 _ = V c main_v59 _
  congr 1
  funext a
  apply Fin.ext
  match a with
  | ⟨0, _⟩ => show win1_0.index t (0 : Fin 2) * 10000 + 1 * r.val = R.val; rw [e0, hR]; omega
  | ⟨1, _⟩ => show win1_0.index t (1 : Fin 2) * 2 + 1 * j.val = j.val; rw [e1]; omega

/-- The bias row's block at every point is the bias row. -/
theorem blk1_1_apply (c : Dev nD) (t : Fin cfg1.N) (j : Fin 2) :
    (iblk1 V c 1 t : Vec Ideal S1x2 .f32) (ix2 (0 : Fin 1) j) = (V c main_v60 : Vec Ideal S1x2 .f32) (ix2 (0 : Fin 1) j) := by
  obtain ⟨-, -, e0, e1, -, -⟩ := idx1 t
  unfold iblk1
  rw [View.read_apply]
  show V c main_v60 _ = V c main_v60 _
  congr 1
  funext a
  apply Fin.ext
  match a with
  | ⟨0, _⟩ => show win1_1.index t (0 : Fin 2) * 1 + 1 * 0 = 0; rw [e0]
  | ⟨1, _⟩ => show win1_1.index t (1 : Fin 2) * 2 + 1 * j.val = j.val; rw [e1]; omega

/-- What point t writes back is block t of `biasLsm` of the aggregate and the bias row as the region finds them. -/
theorem flushed1 (c : Dev nD) (t : Fin cfg1.N) :
    (dat1 V c).flushed 2 t = ((cfg1.win 2).blk t).view.read (Elt Ideal) (biasLsm (F := Ideal) (V c main_v59) (V c main_v60)) := by
  show (cfg1.win 2).cut (grid1.coords t) ((dat1 V c).after 2 t) = _
  rw [after1_2]
  unfold out1_2
  rw [View.canon_unit_zero zero_off2]
  simp only [View.ld_unit_zero (S := S10000x2) zero_off2, View.ld_unit_zero (S := S1x2) zero_off2]
  obtain ⟨-, -, -, -, e0, e1⟩ := idx1 t
  funext y
  obtain ⟨r, j, rfl⟩ : ∃ (r : Fin 10000) (j : Fin 2), y = ix2 r j := ⟨y 0, y 1, eq_ix2 y⟩
  have ht : t.val < 10 := Nat.lt_of_lt_of_eq t.isLt N_1
  have hemb : ((cfg1.win 2).blk t).view.emb (ix2 r j) = ix2 (⟨10000 * t.val + r.val, by have := r.isLt; omega⟩ : Fin 100000) j := by
    funext a
    apply Fin.ext
    match a with
    | ⟨0, _⟩ => show win1_2.index t (0 : Fin 2) * 10000 + 1 * r.val = 10000 * t.val + r.val; rw [e0]; omega
    | ⟨1, _⟩ => show win1_2.index t (1 : Fin 2) * 2 + 1 * j.val = j.val; rw [e1]; omega
  show k1_pay1 (iblk1 V c 0 t) (iblk1 V c 1 t) (ix2 r j)
    = biasLsm (F := Ideal) (V c main_v59) (V c main_v60) (((cfg1.win 2).blk t).view.emb (ix2 r j))
  rw [hemb, pay1_apply (iblk1 V c 0 t) (iblk1 V c 1 t) r j, biasLsm_apply]
  refine congrArg (fun s => rowLsm s j) (funext fun k => ?_)
  rw [blk1_0_apply V c t r k ⟨10000 * t.val + r.val, by have := r.isLt; omega⟩ rfl, blk1_1_apply V c t k]

/-- Every row of the result is in some point's block: row R in point R / 10000's. -/
theorem cover1 (i : S100000x2.Idx) :
    ∃ t : Fin cfg1.N, (cfg1.win 2).flush t = true ∧ i ∈ ((cfg1.win 2).blk t).view.set := by
  have h0 : (i 0).val < 100000 := (i 0).isLt
  have h1 : (i 1).val < 2 := (i 1).isLt
  let t : Fin cfg1.N := ⟨(i 0).val / 10000, by rw [show cfg1.N = 10 from N_1]; omega⟩
  obtain ⟨-, -, -, -, e0, e1⟩ := idx1 t
  refine ⟨t, flush1_2 t, ?_⟩
  show i ∈ ((View.whole main_v61).slice (win1_2.rect t)).set
  rw [View.set_slice_whole, Rect.mem_set_unit]
  intro a
  match a with
  | ⟨0, _⟩ =>
    show win1_2.index t (0 : Fin 2) * 10000 ≤ (i 0).val ∧ (i 0).val < win1_2.index t (0 : Fin 2) * 10000 + 10000
    rw [e0]; show (i 0).val / 10000 * 10000 ≤ (i 0).val ∧ (i 0).val < (i 0).val / 10000 * 10000 + 10000; omega
  | ⟨1, _⟩ =>
    show win1_2.index t (1 : Fin 2) * 2 ≤ (i 1).val ∧ (i 1).val < win1_2.index t (1 : Fin 2) * 2 + 2
    rw [e1]; omega

/-- The result array after the region: `biasLsm` of the aggregate and the bias row as the region finds them. -/
theorem region1_value (c : Dev nD) :
    (dat1 V c).arrAt 2 cfg1.N = biasLsm (F := Ideal) (V c main_v59) (V c main_v60) :=
  (dat1 V c).arrAt_eq_of_cover 2 (biasLsm (F := Ideal) (V c main_v59) (V c main_v60)) (fun t _ => flushed1 V c t) cover1

end Cert.KernelIdeal.Hand

end
-- ==== Proof.KernelValue.lean ====
/-
  The kernel's program from its launch to its result: the contents at each boundary of @main, as the stage functions of
  the reference's own operations. Before the first region the stretches leave the first layer's aggregate and the
  bias row; the region turns them into the aggregate plus bias clipped at zero (`biasRelu`), which is the reference's
  first activation; the next stretch leaves the second layer's aggregate of that and the second bias row; the second
  region turns them into the rows' log-softmax (`biasLsm`), which is the reference's result. A bias enters a region as
  a one-row view of the vector where the reference lays the vector along axis 1 of a one-row array: the same row.
-/
import proofs.«417894_j26645977105089_3_alg».proof.Proof.HostChain
import proofs.«417894_j26645977105089_3_alg».proof.Proof.Region1Blocks
import proofs.«417894_j26645977105089_3_alg».proof.Proof.KRun

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx
open Cert.ReferenceIdeal.ReadP (val_main_v5 val_main_v6 val_main_v14 val_main_v29 val_main_v43 val_main_v44 val_main_v47
  val_main_v91 val_main_v92 val_main_v95)

/-! ## A vector as one row, two spellings -/

/-- A vector viewed as a one-row array is the vector laid along axis 1 of a one-row array. -/
theorem row_cast_eq_bcast {α : Type} {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ (![1] : Fin 1 → Fin 2)) :
    shapeCast ⟨2, ![1, n]⟩ x h1 = broadcastInDim ⟨2, ![1, n]⟩ (![1] : Fin 1 → Fin 2) hd x := by
  funext i
  obtain ⟨p, q, rfl⟩ : ∃ (p : Fin 1) (q : Fin n), i = ix2 p q := ⟨i 0, i 1, eq_ix2 i⟩
  have hp : p.val = 0 := by have := p.isLt; omega
  refine (shapeCast_apply x h1 (ix2 p q) (ix1 q) ?_).trans
    (broadcastInDim_apply (![1] : Fin 1 → Fin 2) hd x (ix2 p q) (ix1 q) ?_).symm
  · rw [Shape.rowMajor_val_two, Shape.rowMajor_val_one]
    show q.val = p.val * n + q.val
    rw [hp]; omega
  · intro a
    match a with
    | ⟨0, _⟩ =>
      show q.val = if n = 1 then 0 else q.val
      split
      · have := q.isLt; omega
      · rfl

section Stages
variable {F : FTy → Type} [FloatOps F]
variable (x0 : (⟨S100000x2, .f32⟩ : BufTy).Contents (Elt F)) (x1 : (⟨S2x3200000, .i32⟩ : BufTy).Contents (Elt F))
  (x2 : (⟨S2x16, .f32⟩ : BufTy).Contents (Elt F)) (x3 : (⟨S16, .f32⟩ : BufTy).Contents (Elt F))
  (x4 : (⟨S16x2, .f32⟩ : BufTy).Contents (Elt F)) (x5 : (⟨S2, .f32⟩ : BufTy).Contents (Elt F))

/-- The first region's function of the first aggregate and the bias row is the reference's first activation. -/
theorem biasRelu_stage : biasRelu (val_main_v43 (F := F) x0 x1 x2) (val_main_v44 (F := F) x3) = val_main_v47 (F := F) x0 x1 x2 x3 := rfl

/-- The second region's function of the second aggregate and the bias row is the reference's result. -/
theorem biasLsm_stage : biasLsm (val_main_v91 (F := F) x0 x1 x2 x3 x4) (val_main_v92 (F := F) x5)
    = val_main_v95 (F := F) x0 x1 x2 x3 x4 x5 := rfl

/-- The first bias as the kernel's program passes it to the region is the reference's one-row array of it. -/
theorem bias1_row : shapeCast S1x16 x3 shapeCasts_S16_S1x16 = val_main_v44 (F := F) x3 :=
  row_cast_eq_bcast x3 shapeCasts_S16_S1x16 (by decide)

/-- The same for the second bias. -/
theorem bias2_row : shapeCast S1x2 x5 shapeCasts_S2_S1x2 = val_main_v92 (F := F) x5 :=
  row_cast_eq_bcast x5 shapeCasts_S2_S1x2 (by decide)

end Stages

/-! ## The boundaries of @main -/

section Boundaries
variable {F : FTy → Type} [FloatOps F]
variable (m : (ℓ : Loc nD τ sig) → Buf (Elt F) ℓ) (ρ : Dev nD → PrngReg) (c : Dev nD)

/-- After the first stretch and the inlined `where`: one fold over both lists. -/
theorem W2_eq : W2 m ρ c = after (opsA (F := F)) (W0 m ρ c) := (StableHlo.after_append _ _ _).symm

theorem w2_v5 : W2 m ρ c (Proc.devRef .tc main_v5) = val_main_v5 (F := F) (m ((c.tc : Thread nD τ).loc main_arg1)) := by
  rw [W2_eq]; exact a_v5 (W0 m ρ c)
theorem w2_v6 : W2 m ρ c (Proc.devRef .tc main_v6) = val_main_v6 (F := F) (m ((c.tc : Thread nD τ).loc main_arg1)) := by
  rw [W2_eq]; exact a_v6 (W0 m ρ c)
theorem w2_v14 : W2 m ρ c (Proc.devRef .tc main_v14) = val_main_v14 (F := F) (m ((c.tc : Thread nD τ).loc main_arg1)) := by
  rw [W2_eq]; exact a_v14 (W0 m ρ c)
theorem w2_arg0 : W2 m ρ c (Proc.devRef .tc main_arg0) = (m ((c.tc : Thread nD τ).loc main_arg0)) := by
  rw [W2_eq]; exact a_arg0 (W0 m ρ c)
theorem w2_arg2 : W2 m ρ c (Proc.devRef .tc main_arg2) = (m ((c.tc : Thread nD τ).loc main_arg2)) := by
  rw [W2_eq]; exact a_arg2 (W0 m ρ c)
theorem w2_arg3 : W2 m ρ c (Proc.devRef .tc main_arg3) = (m ((c.tc : Thread nD τ).loc main_arg3)) := by
  rw [W2_eq]; exact a_arg3 (W0 m ρ c)
theorem w2_arg4 : W2 m ρ c (Proc.devRef .tc main_arg4) = (m ((c.tc : Thread nD τ).loc main_arg4)) := by
  rw [W2_eq]; exact a_arg4 (W0 m ρ c)
theorem w2_arg5 : W2 m ρ c (Proc.devRef .tc main_arg5) = (m ((c.tc : Thread nD τ).loc main_arg5)) := by
  rw [W2_eq]; exact a_arg5 (W0 m ρ c)

/-- At the first region's entry: the first layer's aggregate. -/
theorem w3_v43 : W3 m ρ c (Proc.devRef .tc main_v43) = val_main_v43 (F := F) (m ((c.tc : Thread nD τ).loc main_arg0)) (m ((c.tc : Thread nD τ).loc main_arg1)) (m ((c.tc : Thread nD τ).loc main_arg2)) :=
  b_v43 (W2 m ρ c) _ _ _ (w2_v5 m ρ c) (w2_v6 m ρ c) (w2_v14 m ρ c) (w2_arg0 m ρ c) (w2_arg2 m ρ c)
/-- At the first region's entry: the first bias as a row. -/
theorem w3_v44 : W3 m ρ c (Proc.devRef .tc main_v44) = val_main_v44 (F := F) (m ((c.tc : Thread nD τ).loc main_arg3)) :=
  (b_v44 (W2 m ρ c)).trans ((congrArg (fun x => shapeCast S1x16 x shapeCasts_S16_S1x16) (w2_arg3 m ρ c)).trans (bias1_row _))
theorem w3_v29 : W3 m ρ c (Proc.devRef .tc main_v29) = val_main_v29 (F := F) (m ((c.tc : Thread nD τ).loc main_arg1)) :=
  b_v29 (W2 m ρ c) _ (w2_v5 m ρ c) (w2_v6 m ρ c) (w2_v14 m ρ c)
theorem w3_v5 : W3 m ρ c (Proc.devRef .tc main_v5) = val_main_v5 (F := F) (m ((c.tc : Thread nD τ).loc main_arg1)) := (b_v5 (W2 m ρ c)).trans (w2_v5 m ρ c)
theorem w3_v6 : W3 m ρ c (Proc.devRef .tc main_v6) = val_main_v6 (F := F) (m ((c.tc : Thread nD τ).loc main_arg1)) := (b_v6 (W2 m ρ c)).trans (w2_v6 m ρ c)
theorem w3_arg4 : W3 m ρ c (Proc.devRef .tc main_arg4) = (m ((c.tc : Thread nD τ).loc main_arg4)) := (b_arg4 (W2 m ρ c)).trans (w2_arg4 m ρ c)
theorem w3_arg5 : W3 m ρ c (Proc.devRef .tc main_arg5) = (m ((c.tc : Thread nD τ).loc main_arg5)) := (b_arg5 (W2 m ρ c)).trans (w2_arg5 m ρ c)

/-- At the first region's exit its result array holds the reference's first activation. -/
theorem w4_v45 : W4 m ρ c (Proc.devRef .tc main_v45) = val_main_v47 (F := F) (m ((c.tc : Thread nD τ).loc main_arg0)) (m ((c.tc : Thread nD τ).loc main_arg1)) (m ((c.tc : Thread nD τ).loc main_arg2)) (m ((c.tc : Thread nD τ).loc main_arg3)) := by
  refine (W4_arr m ρ c 2).trans ?_
  rw [region0_value (V3 m ρ) c]
  show biasRelu (W3 m ρ c (Proc.devRef .tc main_v43)) (W3 m ρ c (Proc.devRef .tc main_v44)) = _
  rw [w3_v43, w3_v44]
  exact biasRelu_stage _ _ _ _
theorem w4_v5 : W4 m ρ c (Proc.devRef .tc main_v5) = val_main_v5 (F := F) (m ((c.tc : Thread nD τ).loc main_arg1)) :=
  (W4_of_ne m ρ c main_v5 (by decide)).trans (w3_v5 m ρ c)
theorem w4_v6 : W4 m ρ c (Proc.devRef .tc main_v6) = val_main_v6 (F := F) (m ((c.tc : Thread nD τ).loc main_arg1)) :=
  (W4_of_ne m ρ c main_v6 (by decide)).trans (w3_v6 m ρ c)
theorem w4_v29 : W4 m ρ c (Proc.devRef .tc main_v29) = val_main_v29 (F := F) (m ((c.tc : Thread nD τ).loc main_arg1)) :=
  (W4_of_ne m ρ c main_v29 (by decide)).trans (w3_v29 m ρ c)
theorem w4_arg4 : W4 m ρ c (Proc.devRef .tc main_arg4) = (m ((c.tc : Thread nD τ).loc main_arg4)) :=
  (W4_of_ne m ρ c main_arg4 (by decide)).trans (w3_arg4 m ρ c)
theorem w4_arg5 : W4 m ρ c (Proc.devRef .tc main_arg5) = (m ((c.tc : Thread nD τ).loc main_arg5)) :=
  (W4_of_ne m ρ c main_arg5 (by decide)).trans (w3_arg5 m ρ c)

/-- At the second region's entry: the second layer's aggregate. -/
theorem w5_v59 : W5 m ρ c (Proc.devRef .tc main_v59) = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  c_v59 (W4 m ρ c) _ _ _ _ _ (w4_v45 m ρ c) (w4_v5 m ρ c) (w4_v6 m ρ c) (w4_v29 m ρ c) (w4_arg4 m ρ c)
/-- At the second region's entry: the second bias as a row. -/
theorem w5_v60 : W5 m ρ c (Proc.devRef .tc main_v60) = val_main_v92 (F := F) (m ((c.tc : Thread nD τ).loc main_arg5)) :=
  (c_v60 (W4 m ρ c)).trans ((congrArg (fun x => shapeCast S1x2 x shapeCasts_S2_S1x2) (w4_arg5 m ρ c)).trans (bias2_row _))

end Boundaries

/-- At the extended reals, the result array at the end of @main holds the reference's result of the launch's arguments. -/
theorem w6_v61 (m : (ℓ : Loc nD τ sig) → Buf (Elt Ideal) ℓ) (ρ : Dev nD → PrngReg) (c : Dev nD) :
    W6 m ρ c (Proc.devRef .tc main_v61)
      = val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W6_arr m ρ c 2).trans ?_
  rw [region1_value (V5 m ρ) c]
  show biasLsm (F := Ideal) (W5 m ρ c (Proc.devRef .tc main_v59)) (W5 m ρ c (Proc.devRef .tc main_v60)) = _
  rw [w5_v59, w5_v60]
  exact biasLsm_stage _ _ _ _ _ _

/-- The kernel's run, read: the result array at the reference's result of the arguments, the arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v61)
        = val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (w6_v61 m ρ c), (h c).2⟩) (Cert.KernelIdeal.GenP.run_result (F := Ideal) m ρ)

end Cert.KernelIdeal.Hand

end
-- ==== Proof.lean ====
/-
  A two-layer graph convolution. Both programs form, on the host and with the same operations, the edge lists with a
  self loop at every node, the in-degrees, the symmetric normalisation 1/√(deg src · deg dst), and for each layer the
  dense product of the node features with the layer's weights, gathered along the sources, scaled per edge and summed
  into the targets. The kernel's program then adds the layer's bias and applies the activation — max(·, 0) after the
  first layer, the rows' log-softmax after the second — in a pipelined kernel region over ten blocks of 10000 rows,
  where the reference does it on the host. Over the extended reals the region's blockwise result is the host's whole-array
  one entry by entry (an addition and a maximum; for the log-softmax the same fold of max from −∞, the same sum of the
  row's two exponentials, the same logarithm), and everything upstream is the same composition of the same host
  operations of the same arguments. No law of arithmetic beyond 0 + x = x is used, so the inputs' finiteness is not needed.
  The kernel's frames are the generated ones; the reference's frame is its run with the result dropped; the ideal pass
  rewrote nothing, so `preserves` is trivial.
-/
import proofs.«417894_j26645977105089_3_alg».proof.Defs
import proofs.«417894_j26645977105089_3_alg».proof.Proof.Gen.Kernel
import proofs.«417894_j26645977105089_3_alg».proof.Proof.Gen.Kernel.Skeleton
import proofs.«417894_j26645977105089_3_alg».proof.Proof.Gen.Kernel.Launch
import proofs.«417894_j26645977105089_3_alg».proof.Proof.Gen.Kernel.Points
import proofs.«417894_j26645977105089_3_alg».proof.Proof.Gen.Kernel.Frame
import proofs.«417894_j26645977105089_3_alg».proof.Proof.Gen.KernelIdeal
import proofs.«417894_j26645977105089_3_alg».proof.Proof.Gen.KernelIdeal.Skeleton
import proofs.«417894_j26645977105089_3_alg».proof.Proof.Gen.KernelIdeal.Launch
import proofs.«417894_j26645977105089_3_alg».proof.Proof.Gen.KernelIdeal.Points
import proofs.«417894_j26645977105089_3_alg».proof.Proof.Gen.KernelIdeal.Frame
import proofs.«417894_j26645977105089_3_alg».proof.Proof.Gen.ReferenceIdeal
import proofs.«417894_j26645977105089_3_alg».proof.Proof.Gen.Pre_finite_inputs
import proofs.«417894_j26645977105089_3_alg».proof.Proof.RefRun
import proofs.«417894_j26645977105089_3_alg».proof.Proof.RefRead
import proofs.«417894_j26645977105089_3_alg».proof.Proof.KernelValue
import Idealize.ShloMosaic.Adequacy
import Idealize.ShloMosaic.Init

noncomputable section

namespace Cert.Proof

open Idealize.ShloMosaic Idealize.SL.Sem

/-- The word-level kernel's program runs and keeps its arguments. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the reference's composed function of the arguments in their result arrays: the kernel's by
    its boundaries read through the two regions, the reference's by its run; the arguments agree. -/
theorem algebraic : Cert.algebraic_KernelIdeal_ReferenceIdeal := by
  intro m ρ m' ρ' _ hagree
  refine ⟨fun c => Cert.ReferenceIdeal.ReadP.val_main_v95 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Hand.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5⟩ := hagree c
  rw [Cert.ReferenceIdeal.ReadP.val_main_v95_eq, e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
